-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512x512 : Shape := ⟨2, ![512, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S512x1024 .f32) (main_arg1 : FVec F S512x512 .f32) (main_arg2 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S128x1024 : Shape := ⟨2, ![128, 1024]⟩
abbrev S128x512 : Shape := ⟨2, ![128, 512]⟩

abbrev nBuf : Space → Nat
  | .hbm => 7
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1x512, .f32⟩
  | .hbm, ⟨6, _⟩ => ⟨S512x512, .f32⟩
  | .local _ .vmem, ⟨0, _⟩ => ⟨S512x1024, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1x512, .f32⟩
  | .local _ .vmem, ⟨6, _⟩ => ⟨S128x1024, .f32⟩
  | .local _ .vmem, ⟨7, _⟩ => ⟨S128x1024, .f32⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S128x512, .f32⟩
  | .local _ .vmem, ⟨12, _⟩ => ⟨S128x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  reduces_S512x1024_S512 : S512x1024.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  inb_S128x1024_S128x1024_0_0 : ∀ a, (![0, 0] : Fin 2 → Nat) a + S128x1024.size a ≤ S128x1024.size a
  h_S128x1024 : 0 < S128x1024.numel
  shapeCasts_S512x1024_S512x1024 : S512x1024.ShapeCasts S512x1024
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  dot_S512x512_S512x1024_S512x1024_0_0_1_1_n_n_wf : DotDims.WF S512x512 S512x1024 S512x1024 [0] [0] [1] [1] [] []
  dot_S128x1024_S512x1024_S128x512_1_1_0_0_n_n_wf : DotDims.WF S128x1024 S512x1024 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .f32 = 32 ∨ (Rect.block (s := S512x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x1024.size a
  hwx1_2 : ∀ i : grid1.Coords, EltTy.bits .f32 = 32 ∨ (Rect.block (s := S512x1024) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S512x512.size a
  hwx1_4 : ∀ i : grid1.Coords, EltTy.bits .f32 = 32 ∨ (Rect.block (s := S512x512) S128x512.size (cc1_transform_4 i) (hinb1_4 i)).WholeWords (EltTy.packing .f32)

variable [Facts₀]

def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf
def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x1024 : Shape := ⟨2, ![512, 1024]⟩
abbrev S512x512 : Shape := ⟨2, ![512, 512]⟩
abbrev S_ : Shape := ⟨0, ![]⟩
abbrev S512x1x1024 : Shape := ⟨3, ![512, 1, 1024]⟩
abbrev S1x512x1024 : Shape := ⟨3, ![1, 512, 1024]⟩
abbrev S512x512x1024 : Shape := ⟨3, ![512, 512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1x1024, .f32⟩
  | .hbm, ⟨17, _⟩ => ⟨S1x512x1024, .f32⟩
  | .hbm, ⟨18, _⟩ => ⟨S512x512x1024, .f32⟩
  | .hbm, ⟨19, _⟩ => ⟨S512x512x1024, .f32⟩
  | .hbm, ⟨20, _⟩ => ⟨S512x512x1024, .f32⟩
  | .hbm, ⟨21, _⟩ => ⟨S1x512x1024, .f32⟩
  | .hbm, ⟨22, _⟩ => ⟨S512x512x1024, .f32⟩
  | .hbm, ⟨23, _⟩ => ⟨S512x512x1024, .f32⟩
  | .hbm, ⟨24, _⟩ => ⟨S512x512x1024, .f32⟩
  | .hbm, ⟨25, _⟩ => ⟨S_, .f32⟩
  | .hbm, ⟨26, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  bcast_S512x1024_S512x1x1024_0_2 : S512x1024.BroadcastsInDim S512x1x1024 (![0, 2] : Fin 2 → Fin S512x1x1024.rank)
  bcast_S512x1024_S1x512x1024_1_2 : S512x1024.BroadcastsInDim S1x512x1024 (![1, 2] : Fin 2 → Fin S1x512x1024.rank)
  bcast_S512x1x1024_S512x512x1024_0_1_2 : S512x1x1024.BroadcastsInDim S512x512x1024 (![0, 1, 2] : Fin 3 → Fin S512x512x1024.rank)
  bcast_S1x512x1024_S512x512x1024_0_1_2 : S1x512x1024.BroadcastsInDim S512x512x1024 (![0, 1, 2] : Fin 3 → Fin S512x512x1024.rank)
  reducesTo_S512x512x1024_S512x512_d2 : S512x512x1024.ReducesTo [2] S512x512
  h_S_ : 0 < S_.numel
  dot_S512x512_S512x1024_S512x1024_0_0_1_1_n_n_wf : DotDims.WF S512x512 S512x1024 S512x1024 [0] [0] [1] [1] [] []

variable [Facts₀]

def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

class Facts : Prop extends Facts₀ where

variable [Facts]
-- ==== Proof.Spec.lean ====
/-
  The masked squared distance to per-column centroids, as functions on the extended reals.

  For X : [512, 1024], U : [512, 512], M : [512, 1024]:
    s[k, d]   = ∑_b U[b, k] · X[b, d]                  (the centroid numerator)
    h[k, d]   = roundHalfEven (min 1 (max 0 M[k, d]))   (the hard mask, a number in {0, 1} when M[k, d] is real)
  The quotient form takes the centroid c = s / 512 and sums the squared masked differences
    D[b, k] = ∑_d ((X[b, d] − c[k, d]) · h[k, d])².
  The expanded form takes the centroid c' = s · 2⁻⁹ and uses h² = h:
    D'[b, k] = (∑_d X[b, d]² · h[k, d]  −  2 · ∑_d X[b, d] · (h[k, d] · c'[k, d]))  +  ∑_d h[k, d] · c'[k, d]².
  This module only states the two forms; that they agree on real data is proved in the module on the law.
-/
import Idealize.ShloMosaic.PureOps.Ideal
import Idealize.ShloMosaic.Lib.ValueIdx

noncomputable section

open scoped BigOperators

namespace Cert.MaskedDist

open Idealize.ShloMosaic Idealize.ShloMosaic.ValueIdx

/-- The shape of X and of M (and of the mask and the masked centroids). -/
abbrev SX : Shape := ⟨2, ![512, 1024]⟩
/-- The shape of U and of the result D. -/
abbrev SU : Shape := ⟨2, ![512, 512]⟩

variable (X : FVec Ideal SX .f32) (U : FVec Ideal SU .f32) (M : FVec Ideal SX .f32)

/-- The centroid numerator: s[k, d] = ∑_b U[b, k] · X[b, d]. -/
def usum (k : Fin 512) (d : Fin 1024) : EReal :=
  ∑ b : Fin 512, U (ix2 b k) * X (ix2 b d)

/-- The hard mask: M clipped to [0, 1], then rounded to the nearest integer, ties to even. -/
def hard (k : Fin 512) (d : Fin 1024) : EReal :=
  Ideal.liftRound Ideal.roundHalfEven
    (min (Ideal.ofBits .f32 0x3F800000#32) (max (Ideal.ofBits .f32 0x00000000#32) (M (ix2 k d))))

/-- The centroid as a quotient by the word of 512. -/
def cenQ (k : Fin 512) (d : Fin 1024) : EReal :=
  Ideal.div (usum X U k d) (Ideal.ofBits .f32 0x44000000#32)

/-- The centroid as a product with the word of 2⁻⁹. -/
def cenP (k : Fin 512) (d : Fin 1024) : EReal :=
  usum X U k d * Ideal.ofBits .f32 0x3B000000#32

/-- The quotient form: the sum over d of the squared masked difference. -/
def refDist (b k : Fin 512) : EReal :=
  ∑ d : Fin 1024, ((X (ix2 b d) - cenQ X U k d) * hard M k d) * ((X (ix2 b d) - cenQ X U k d) * hard M k d)

/-- The expanded form: three sums over d, the middle one doubled by the word of 2. -/
def kerDist (b k : Fin 512) : EReal :=
  ((∑ d : Fin 1024, (X (ix2 b d) * X (ix2 b d)) * hard M k d)
      - Ideal.ofBits .f32 0x40000000#32 * (∑ d : Fin 1024, X (ix2 b d) * (hard M k d * cenP X U k d)))
    + (∑ d : Fin 1024, hard M k d * (cenP X U k d * cenP X U k d))

/-- The result array in the quotient form. -/
def refArr : FVec Ideal SU .f32 := fun i => refDist X U M (i 0) (i 1)

/-- The result array in the expanded form. -/
def kerArr : FVec Ideal SU .f32 := fun i => kerDist X U M (i 0) (i 1)

end Cert.MaskedDist

end
-- ==== Proof.LibMoments.lean ====
/-
  General lemmas on Mathlib's extended reals: coercion of finite sums, the two forms of a
  variance (mean of squares minus squared mean, against mean of squared deviations) over REAL
  data, the closure of "is a real number" under the arithmetic used downstream, the collapse
  of a tile-by-tile accumulation into one sum, and one-hot weighted sums as filtered sums.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

/-! ### 1. Coercion of a finite sum -/

/-- The coercion of the reals into the extended reals carries a finite sum (over a finset) to
    the sum of the coercions. -/
theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- The coercion carries a sum over a finite type to the sum of the coercions. -/
theorem coe_sum {ι : Type*} [Fintype ι] (r : ι → ℝ) :
    ((∑ i, r i : ℝ) : EReal) = ∑ i, ((r i : ℝ) : EReal) :=
  coe_finset_sum Finset.univ r

/-- The same with an initial summand 0: 0 plus the sum of the coercions is the coercion of
    the real sum. -/
theorem coe_sum_zero_add {ι : Type*} [Fintype ι] (r : ι → ℝ) :
    (0 : EReal) + ∑ i, ((r i : ℝ) : EReal) = ((∑ i, r i : ℝ) : EReal) := by
  rw [zero_add, coe_sum]

/-! ### 4. Being a real number -/

/-- An extended real IS REAL when it is the coercion of a real number. -/
def IsReal (x : EReal) : Prop := ∃ r : ℝ, x = (r : EReal)

/-- Being real is being neither the top nor the bottom element. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

namespace IsReal

/-- A coercion is real. -/
theorem coe (r : ℝ) : IsReal (r : EReal) := ⟨r, rfl⟩
/-- Zero is real. -/
theorem zero : IsReal 0 := ⟨0, EReal.coe_zero.symm⟩
/-- One is real. -/
theorem one : IsReal 1 := ⟨1, EReal.coe_one.symm⟩
/-- A natural number is real. -/
theorem natCast (n : ℕ) : IsReal (n : EReal) := ⟨(n : ℝ), (EReal.coe_coe_eq_natCast n).symm⟩

variable {x y : EReal}

/-- A real is not the top element. -/
theorem ne_top (hx : IsReal x) : x ≠ ⊤ := (isReal_iff.1 hx).1
/-- A real is not the bottom element. -/
theorem ne_bot (hx : IsReal x) : x ≠ ⊥ := (isReal_iff.1 hx).2

/-- The sum of two reals is real. -/
theorem add (hx : IsReal x) (hy : IsReal y) : IsReal (x + y) := by
  obtain ⟨a, rfl⟩ := hx; obtain ⟨b, rfl⟩ := hy; exact ⟨a + b, (EReal.coe_add a b).symm⟩
/-- The difference of two reals is real. -/
theorem sub (hx : IsReal x) (hy : IsReal y) : IsReal (x - y) := by
  obtain ⟨a, rfl⟩ := hx; obtain ⟨b, rfl⟩ := hy; exact ⟨a - b, (EReal.coe_sub a b).symm⟩
/-- The product of two reals is real. -/
theorem mul (hx : IsReal x) (hy : IsReal y) : IsReal (x * y) := by
  obtain ⟨a, rfl⟩ := hx; obtain ⟨b, rfl⟩ := hy; exact ⟨a * b, (EReal.coe_mul a b).symm⟩
/-- The opposite of a real is real. -/
theorem neg (hx : IsReal x) : IsReal (-x) := by
  obtain ⟨a, rfl⟩ := hx; exact ⟨-a, (EReal.coe_neg a).symm⟩
/-- The larger of two reals is real. -/
theorem max (hx : IsReal x) (hy : IsReal y) : IsReal (max x y) := by
  rcases le_total x y with h | h
  · rwa [max_eq_right h]
  · rwa [max_eq_left h]
/-- The smaller of two reals is real. -/
theorem min (hx : IsReal x) (hy : IsReal y) : IsReal (min x y) := by
  rcases le_total x y with h | h
  · rwa [min_eq_left h]
  · rwa [min_eq_right h]
/-- The extended reals' inverse of a real is real (the inverse of 0 is 0 there). -/
theorem inv (hx : IsReal x) : IsReal x⁻¹ := by
  obtain ⟨a, rfl⟩ := hx; exact ⟨a⁻¹, (EReal.coe_inv a).symm⟩
/-- A real times the inverse of a real is real. -/
theorem mul_inv_coe (hx : IsReal x) (c : ℝ) : IsReal (x * ((c : ℝ) : EReal)⁻¹) :=
  hx.mul (IsReal.coe c).inv

/-- A finite sum of reals is real. -/
theorem finset_sum {ι : Type*} (s : Finset ι) (f : ι → EReal) (h : ∀ i ∈ s, IsReal (f i)) :
    IsReal (∑ i ∈ s, f i) :=
  Finset.sum_induction f IsReal (fun _ _ => IsReal.add) IsReal.zero h
/-- A sum of reals over a finite type is real. -/
theorem sum {ι : Type*} [Fintype ι] (f : ι → EReal) (h : ∀ i, IsReal (f i)) :
    IsReal (∑ i, f i) :=
  finset_sum _ f fun i _ => h i
/-- An initial 0 plus a sum of reals over a finite type is real. -/
theorem zero_add_sum {ι : Type*} [Fintype ι] (f : ι → EReal) (h : ∀ i, IsReal (f i)) :
    IsReal (0 + ∑ i, f i) :=
  IsReal.zero.add (sum f h)
/-- A real initial value plus a sum of reals over a finite type is real. -/
theorem add_sum {ι : Type*} [Fintype ι] {z : EReal} (hz : IsReal z) (f : ι → EReal)
    (h : ∀ i, IsReal (f i)) : IsReal (z + ∑ i, f i) :=
  hz.add (sum f h)

end IsReal

/-- The ideal quotient by a nonzero real is the product with the extended reals' inverse. -/
theorem div_coe_eq_mul_inv {c : ℝ} (hc : c ≠ 0) (x : EReal) :
    Ideal.div x ((c : ℝ) : EReal) = x * ((c : ℝ) : EReal)⁻¹ := by
  rw [Ideal.div, if_neg (by exact_mod_cast hc)]

/-- The ideal quotient of a real by a nonzero real is real. -/
theorem IsReal.div_coe {x : EReal} (hx : IsReal x) {c : ℝ} (hc : c ≠ 0) :
    IsReal (Ideal.div x ((c : ℝ) : EReal)) := by
  rw [div_coe_eq_mul_inv hc]; exact hx.mul_inv_coe c

/-- The ideal quotient of two coerced reals, the divisor nonzero, is the coerced real quotient. -/
theorem div_coe_coe (a : ℝ) {c : ℝ} (hc : c ≠ 0) :
    Ideal.div ((a : ℝ) : EReal) ((c : ℝ) : EReal) = ((a / c : ℝ) : EReal) := by
  rw [div_coe_eq_mul_inv hc, ← EReal.coe_inv, ← EReal.coe_mul, div_eq_mul_inv]

/-- The ideal reciprocal square root of a positive real v is the coercion of (√v)⁻¹. -/
theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

/-- The ideal reciprocal square root of a positive real is real. -/
theorem IsReal.rsqrt_coe_pos {v : ℝ} (hv : 0 < v) : IsReal (Ideal.rsqrt ((v : ℝ) : EReal)) :=
  ⟨_, Cert.LibMoments.rsqrt_coe_pos hv⟩

/-- The ideal reciprocal square root of a positive real is a positive real. -/
theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

/-! ### 2. The two forms of a variance -/

section Variance
variable {ι : Type*} [Fintype ι]

/-- Over the reals: the mean of the squares minus the square of the mean is the mean of the
    squared deviations from the mean (N the number of data, nonzero). -/
theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

/-- Over the extended reals, for REAL data r: with S the sum of the data, Q the sum of their
    squares and μ = S · N⁻¹, one has Q · N⁻¹ − μ · μ = (∑ (r − μ) · (r − μ)) · N⁻¹
    (N the number of data, nonzero). -/
theorem variance_two_forms (r : ι → ℝ) (N : ℝ) (hN : N ≠ 0) (hcard : (Fintype.card ι : ℝ) = N) :
    (∑ i, ((r i : ℝ) : EReal) * ((r i : ℝ) : EReal)) * ((N : ℝ) : EReal)⁻¹
        - (∑ i, ((r i : ℝ) : EReal)) * ((N : ℝ) : EReal)⁻¹
          * ((∑ i, ((r i : ℝ) : EReal)) * ((N : ℝ) : EReal)⁻¹)
      = (∑ i, (((r i : ℝ) : EReal) - (∑ i, ((r i : ℝ) : EReal)) * ((N : ℝ) : EReal)⁻¹)
            * (((r i : ℝ) : EReal) - (∑ i, ((r i : ℝ) : EReal)) * ((N : ℝ) : EReal)⁻¹))
          * ((N : ℝ) : EReal)⁻¹ := by
  simp only [← EReal.coe_mul, ← coe_sum, ← EReal.coe_inv, ← EReal.coe_sub]
  rw [real_variance_two_forms r N hN hcard]

/-- The same law with each sum preceded by the initial value 0 and each division written as the
    ideal quotient by the real N. -/
theorem variance_two_forms_div (r : ι → ℝ) (N : ℝ) (hN : N ≠ 0)
    (hcard : (Fintype.card ι : ℝ) = N) :
    Ideal.div (0 + ∑ i, ((r i : ℝ) : EReal) * ((r i : ℝ) : EReal)) ((N : ℝ) : EReal)
        - Ideal.div (0 + ∑ i, ((r i : ℝ) : EReal)) ((N : ℝ) : EReal)
          * Ideal.div (0 + ∑ i, ((r i : ℝ) : EReal)) ((N : ℝ) : EReal)
      = Ideal.div
          (0 + ∑ i, (((r i : ℝ) : EReal) - Ideal.div (0 + ∑ i, ((r i : ℝ) : EReal)) ((N : ℝ) : EReal))
            * (((r i : ℝ) : EReal) - Ideal.div (0 + ∑ i, ((r i : ℝ) : EReal)) ((N : ℝ) : EReal)))
          ((N : ℝ) : EReal) := by
  simp only [zero_add, div_coe_eq_mul_inv hN]
  exact variance_two_forms r N hN hcard

/-- The law for extended-real data every entry of which is real, with the sum S, the sum of
    squares Q and the mean μ named by equations (so that a caller may present them in any
    syntactic form, for instance with an initial 0). -/
theorem variance_two_forms_of_isReal (x : ι → EReal) (hx : ∀ i, IsReal (x i)) (N : ℝ) (hN : N ≠ 0)
    (hcard : (Fintype.card ι : ℝ) = N) (S Q μ : EReal) (hS : S = ∑ i, x i)
    (hQ : Q = ∑ i, x i * x i) (hμ : μ = S * ((N : ℝ) : EReal)⁻¹) :
    Q * ((N : ℝ) : EReal)⁻¹ - μ * μ = (∑ i, (x i - μ) * (x i - μ)) * ((N : ℝ) : EReal)⁻¹ := by
  choose r hr using hx
  obtain rfl : x = fun i => ((r i : ℝ) : EReal) := funext hr
  subst hμ; subst hS; subst hQ
  exact variance_two_forms r N hN hcard

/-- The law for extended-real data every entry of which is real, in the shape "initial 0 plus
    the sum, ideal quotient by N". -/
theorem variance_two_forms_div_of_isReal (x : ι → EReal) (hx : ∀ i, IsReal (x i)) (N : ℝ)
    (hN : N ≠ 0) (hcard : (Fintype.card ι : ℝ) = N) :
    Ideal.div (0 + ∑ i, x i * x i) ((N : ℝ) : EReal)
        - Ideal.div (0 + ∑ i, x i) ((N : ℝ) : EReal) * Ideal.div (0 + ∑ i, x i) ((N : ℝ) : EReal)
      = Ideal.div
          (0 + ∑ i, (x i - Ideal.div (0 + ∑ i, x i) ((N : ℝ) : EReal))
            * (x i - Ideal.div (0 + ∑ i, x i) ((N : ℝ) : EReal)))
          ((N : ℝ) : EReal) := by
  choose r hr using hx
  obtain rfl : x = fun i => ((r i : ℝ) : EReal) := funext hr
  exact variance_two_forms_div r N hN hcard

/-! ### 3. The variance is a nonnegative real -/

/-- The mean of the squared deviations of real data from a real centre m, over a positive count
    N, is the coercion of a nonnegative real. -/
theorem centered_mean_sq_coe (r : ι → ℝ) (m : ℝ) (N : ℝ) (hN : 0 < N) :
    ∃ v : ℝ, 0 ≤ v ∧
      (∑ i, (((r i : ℝ) : EReal) - ((m : ℝ) : EReal)) * (((r i : ℝ) : EReal) - ((m : ℝ) : EReal)))
        * ((N : ℝ) : EReal)⁻¹ = ((v : ℝ) : EReal) := by
  refine ⟨(∑ i, (r i - m) * (r i - m)) * N⁻¹, ?_, ?_⟩
  · exact mul_nonneg (Finset.sum_nonneg fun i _ => mul_self_nonneg _) (inv_nonneg.2 hN.le)
  · simp only [← EReal.coe_sub, ← EReal.coe_mul, ← coe_sum, ← EReal.coe_inv]

/-- The same for extended-real data and centre, all real. -/
theorem variance_nonneg (x : ι → EReal) (hx : ∀ i, IsReal (x i)) (μ : EReal) (hμ : IsReal μ)
    (N : ℝ) (hN : 0 < N) :
    ∃ v : ℝ, 0 ≤ v ∧ (∑ i, (x i - μ) * (x i - μ)) * ((N : ℝ) : EReal)⁻¹ = ((v : ℝ) : EReal) := by
  choose r hr using hx
  obtain rfl : x = fun i => ((r i : ℝ) : EReal) := funext hr
  obtain ⟨m, rfl⟩ := hμ
  exact centered_mean_sq_coe r m N hN

/-- The same in the shape "initial 0 plus the sum, ideal quotient by N". -/
theorem variance_div_nonneg (x : ι → EReal) (hx : ∀ i, IsReal (x i)) (μ : EReal) (hμ : IsReal μ)
    (N : ℝ) (hN : 0 < N) :
    ∃ v : ℝ, 0 ≤ v ∧
      Ideal.div (0 + ∑ i, (x i - μ) * (x i - μ)) ((N : ℝ) : EReal) = ((v : ℝ) : EReal) := by
  rw [zero_add, div_coe_eq_mul_inv hN.ne']
  exact variance_nonneg x hx μ hμ N hN

/-- Mean of squares minus squared mean, for real data, is the coercion of a nonnegative real. -/
theorem raw_variance_nonneg (x : ι → EReal) (hx : ∀ i, IsReal (x i)) (N : ℝ) (hN : 0 < N)
    (hcard : (Fintype.card ι : ℝ) = N) :
    ∃ v : ℝ, 0 ≤ v ∧
      (∑ i, x i * x i) * ((N : ℝ) : EReal)⁻¹
        - (∑ i, x i) * ((N : ℝ) : EReal)⁻¹ * ((∑ i, x i) * ((N : ℝ) : EReal)⁻¹)
        = ((v : ℝ) : EReal) := by
  rw [variance_two_forms_of_isReal x hx N hN.ne' hcard _ _ _ rfl rfl rfl]
  exact variance_nonneg x hx _ ((IsReal.sum x hx).mul_inv_coe N) N hN

/-- The same in the shape "initial 0 plus the sum, ideal quotient by N". -/
theorem raw_variance_div_nonneg (x : ι → EReal) (hx : ∀ i, IsReal (x i)) (N : ℝ) (hN : 0 < N)
    (hcard : (Fintype.card ι : ℝ) = N) :
    ∃ v : ℝ, 0 ≤ v ∧
      Ideal.div (0 + ∑ i, x i * x i) ((N : ℝ) : EReal)
        - Ideal.div (0 + ∑ i, x i) ((N : ℝ) : EReal) * Ideal.div (0 + ∑ i, x i) ((N : ℝ) : EReal)
        = ((v : ℝ) : EReal) := by
  simp only [zero_add, div_coe_eq_mul_inv hN.ne']
  exact raw_variance_nonneg x hx N hN hcard

/-- A nonnegative real plus a positive real ε is the coercion of a positive real. -/
theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

/-- The ideal reciprocal square root of a nonnegative real plus a positive real ε is a positive
    real. -/
theorem rsqrt_add_eps_pos {y : EReal} (hy : ∃ v : ℝ, 0 ≤ v ∧ y = ((v : ℝ) : EReal)) {ε : ℝ}
    (hε : 0 < ε) :
    ∃ w : ℝ, 0 < w ∧ Ideal.rsqrt (y + ((ε : ℝ) : EReal)) = ((w : ℝ) : EReal) := by
  obtain ⟨u, hu, e⟩ := add_eps_pos hy hε
  rw [e]; exact rsqrt_coe_pos' hu

/-- Hence it is real. -/
theorem IsReal.rsqrt_add_eps {y : EReal} (hy : ∃ v : ℝ, 0 ≤ v ∧ y = ((v : ℝ) : EReal)) {ε : ℝ}
    (hε : 0 < ε) : IsReal (Ideal.rsqrt (y + ((ε : ℝ) : EReal))) := by
  obtain ⟨w, _, e⟩ := rsqrt_add_eps_pos hy hε
  exact ⟨w, e⟩

end Variance

/-! ### 5. Tile-by-tile accumulation -/

section Tiles
variable {M : Type*} [AddCommMonoid M]

/-- Left-nested accumulation of a sequence s onto an initial value z: after t steps it is
    ((z + s 0) + s 1) + … + s (t-1). -/
def acc (z : M) (s : ℕ → M) : ℕ → M
  | 0 => z
  | t + 1 => acc z s t + s t

/-- Before any step the accumulation is the initial value. -/
@[simp] theorem acc_zero (z : M) (s : ℕ → M) : acc z s 0 = z := rfl
/-- One more step adds the next term on the right. -/
@[simp] theorem acc_succ (z : M) (s : ℕ → M) (t : ℕ) : acc z s (t + 1) = acc z s t + s t := rfl

/-- After A steps the accumulation is the initial value plus the sum of the first A terms. -/
theorem acc_eq_add_sum_range (z : M) (s : ℕ → M) (A : ℕ) :
    acc z s A = z + ∑ t ∈ Finset.range A, s t := by
  induction A with
  | zero => simp
  | succ n ih => rw [acc_succ, ih, Finset.sum_range_succ, add_assoc]

/-- The same with the sum taken over the finite type of the first A naturals. -/
theorem acc_eq_add_sum_fin (z : M) (s : ℕ → M) (A : ℕ) :
    acc z s A = z + ∑ t : Fin A, s t := by
  rw [acc_eq_add_sum_range, Finset.sum_range]

/-- From the initial value 0 the accumulation is 0 plus the sum of the first A terms. -/
theorem acc_zero_eq (s : ℕ → M) (A : ℕ) : acc 0 s A = 0 + ∑ t : Fin A, s t :=
  acc_eq_add_sum_fin 0 s A

/-- Tiles: if the t-th term is 0 plus the sum of the entries of the t-th tile, and the tiles
    (t, j) enumerate an index type ι through a bijection e, then accumulating the A tile sums
    onto z gives z plus the sum of ALL entries. No finiteness of the values is needed. -/
theorem acc_tiles_equiv {ι κ : Type*} [Fintype ι] [Fintype κ] (A : ℕ) (e : Fin A × κ ≃ ι)
    (a : ι → M) (s : ℕ → M) (hs : ∀ t : Fin A, s t = 0 + ∑ j : κ, a (e (t, j))) (z : M) :
    acc z s A = z + ∑ i : ι, a i := by
  rw [acc_eq_add_sum_fin]
  congr 1
  rw [← Equiv.sum_comp e a, Fintype.sum_prod_type]
  exact Finset.sum_congr rfl fun t _ => by rw [hs t, zero_add]

/-- Tiles indexed by a pair (tile, position in tile). -/
theorem acc_tiles_prod (A B : ℕ) (a : Fin A × Fin B → M) (s : ℕ → M)
    (hs : ∀ t : Fin A, s t = 0 + ∑ j : Fin B, a (t, j)) (z : M) :
    acc z s A = z + ∑ p : Fin A × Fin B, a p :=
  acc_tiles_equiv A (Equiv.refl _) a s hs z

/-- Tiles of a flat index: entry number j + B * t is position j of tile t. -/
theorem acc_tiles_flat (A B : ℕ) (a : Fin (A * B) → M) (s : ℕ → M)
    (hs : ∀ t : Fin A, s t = 0 + ∑ j : Fin B, a (finProdFinEquiv (t, j))) (z : M) :
    acc z s A = z + ∑ k : Fin (A * B), a k :=
  acc_tiles_equiv A finProdFinEquiv a s hs z

/-- From the initial value 0: the accumulated tile sums are 0 plus the sum of all entries. -/
theorem acc_zero_tiles_flat (A B : ℕ) (a : Fin (A * B) → M) (s : ℕ → M)
    (hs : ∀ t : Fin A, s t = 0 + ∑ j : Fin B, a (finProdFinEquiv (t, j))) :
    acc 0 s A = 0 + ∑ k : Fin (A * B), a k :=
  acc_tiles_flat A B a s hs 0

end Tiles

/-! ### 6. One-hot weighted sums -/

section OneHot
variable {ι : Type*}

/-- A sum weighted by the indicator (1 where p holds, 0 elsewhere) of a predicate is the sum over
    the indices where p holds: it uses only 1 · x = x and 0 · x = 0, which hold for every
    extended real, the infinities included. -/
theorem finset_sum_onehot_mul (s : Finset ι) (p : ι → Prop) [DecidablePred p] (f : ι → EReal) :
    ∑ i ∈ s, (if p i then (1 : EReal) else 0) * f i = ∑ i ∈ s.filter p, f i := by
  rw [Finset.sum_filter]
  refine Finset.sum_congr rfl fun i _ => ?_
  by_cases h : p i
  · rw [if_pos h, if_pos h, one_mul]
  · rw [if_neg h, if_neg h, zero_mul]

/-- The same over a finite type. -/
theorem sum_onehot_mul [Fintype ι] (p : ι → Prop) [DecidablePred p] (f : ι → EReal) :
    ∑ i, (if p i then (1 : EReal) else 0) * f i = ∑ i ∈ Finset.univ.filter p, f i :=
  finset_sum_onehot_mul Finset.univ p f

/-- With the weight on the right. -/
theorem sum_mul_onehot [Fintype ι] (p : ι → Prop) [DecidablePred p] (f : ι → EReal) :
    ∑ i, f i * (if p i then (1 : EReal) else 0) = ∑ i ∈ Finset.univ.filter p, f i := by
  rw [Finset.sum_filter]
  refine Finset.sum_congr rfl fun i _ => ?_
  by_cases h : p i
  · rw [if_pos h, if_pos h, mul_one]
  · rw [if_neg h, if_neg h, mul_zero]

end OneHot

/-- The one-hot weights themselves sum to the number of indices where the predicate holds, an
    extended real that is a natural number. -/
theorem sum_onehot_one {ι : Type*} [Fintype ι] (p : ι → Prop) [DecidablePred p] :
    ∑ i, (if p i then (1 : EReal) else 0) * 1 = (((Finset.univ.filter p).card : ℕ) : EReal) := by
  rw [sum_onehot_mul, Finset.sum_const, nsmul_one]

/-- The count above, as an extended real, is real and nonnegative; its maximum with 1 is a
    real at least 1. -/
theorem max_natCast_one (n : ℕ) :
    ∃ c : ℝ, 1 ≤ c ∧ max ((n : ℕ) : EReal) 1 = ((c : ℝ) : EReal) := by
  refine ⟨max (n : ℝ) 1, le_max_right _ _, ?_⟩
  rw [← EReal.coe_coe_eq_natCast, ← EReal.coe_one]
  rcases le_total (n : ℝ) 1 with h | h
  · rw [max_eq_right h, max_eq_right (EReal.coe_le_coe_iff.2 h)]
  · rw [max_eq_left h, max_eq_left (EReal.coe_le_coe_iff.2 h)]

/-! ### Further closure facts -/

/-- The ideal quotient of a real by a nonzero real (both given as extended reals) is real. -/
theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

/-- A choice between two reals is real. -/
theorem IsReal.ite {x y : EReal} (c : Prop) [Decidable c] (hx : IsReal x) (hy : IsReal y) :
    IsReal (if c then x else y) := by
  by_cases h : c
  · rwa [if_pos h]
  · rwa [if_neg h]

/-- The positive part of a real is real. -/
theorem IsReal.max_zero {x : EReal} (hx : IsReal x) : IsReal (Max.max x 0) := hx.max IsReal.zero

/-- An accumulated contraction, an initial real plus a finite sum of products of reals, is
    real. -/
theorem IsReal.add_sum_mul {κ : Type*} [Fintype κ] {z : EReal} (hz : IsReal z) (a b : κ → EReal)
    (ha : ∀ k, IsReal (a k)) (hb : ∀ k, IsReal (b k)) : IsReal (z + ∑ k, a k * b k) :=
  hz.add_sum _ fun k => (ha k).mul (hb k)

/-- A left-nested accumulation of reals onto a real is real at every step. -/
theorem IsReal.acc {z : EReal} (hz : IsReal z) (s : ℕ → EReal) (A : ℕ)
    (hs : ∀ t, t < A → IsReal (s t)) : IsReal (acc z s A) := by
  induction A with
  | zero => simpa using hz
  | succ n ih =>
    rw [acc_succ]
    exact (ih fun t ht => hs t (Nat.lt_succ_of_lt ht)).add (hs n (Nat.lt_succ_self n))

/-- Tiles whose t-th term is the bare sum of the t-th tile (no initial 0): accumulating the A
    tile sums onto z gives z plus the sum of all entries. -/
theorem acc_tiles_equiv' {M : Type*} [AddCommMonoid M] {ι κ : Type*} [Fintype ι] [Fintype κ]
    (A : ℕ) (e : Fin A × κ ≃ ι) (a : ι → M) (s : ℕ → M)
    (hs : ∀ t : Fin A, s t = ∑ j : κ, a (e (t, j))) (z : M) :
    acc z s A = z + ∑ i : ι, a i :=
  acc_tiles_equiv A e a s (fun t => by rw [hs t, zero_add]) z

/-- A sum of ones over the indices where a predicate holds is their number. -/
theorem sum_filter_one {ι : Type*} [Fintype ι] (p : ι → Prop) [DecidablePred p] :
    ∑ _i ∈ Finset.univ.filter p, (1 : EReal) = (((Finset.univ.filter p).card : ℕ) : EReal) := by
  rw [Finset.sum_const, nsmul_one]

end Cert.LibMoments
-- ==== Proof.Law.lean ====
/-
  The masked squared distance to per-column centroids: the expanded form equals the quotient form
  on real data.

  Notation as in the module that states the two forms: s[k, d] = ∑_b U[b, k] · X[b, d] is the
  centroid numerator, h[k, d] the hard mask (M clipped to [0, 1] and rounded to the nearest
  integer, ties to even).  When every entry of X, U and M is a real number:
    * the five float words that occur denote the reals 0, 1, 2, 512 and 1/512;
    * the hard mask is the real 0 or the real 1, so that h · h = h;
    * the two centroids agree, s / 512 = s · (1/512);
    * hence, term by term in d, ((x − c) · h)² = x² · h − 2 · x · (h · c) + h · c², and summing
      over d gives
        ∑_d ((x_d − c_d) · h_d)² = (∑_d x_d² · h_d − 2 · ∑_d x_d · (h_d · c_d)) + ∑_d h_d · c_d².
  All sums are finite sums of reals, so the identity is proved over ℝ and carried to the extended
  reals through the coercion.
-/
import proofs.«110606_j33285996544551_1_alg».proof.Proof.Spec
import proofs.«110606_j33285996544551_1_alg».proof.Proof.LibMoments
import Idealize.ShloMosaic.PureOps.Ideal.Laws
import Mathlib.Data.EReal.Basic
import Mathlib.Data.EReal.Operations
import Mathlib.Algebra.BigOperators.Group.Finset.Basic
import Mathlib.Algebra.BigOperators.Ring.Finset
import Mathlib.Algebra.Order.Floor.Ring
import Mathlib.Tactic.NormNum
import Mathlib.Tactic.Ring
import Mathlib.Tactic.Linarith

noncomputable section

open scoped BigOperators

namespace Cert.MaskedDist

open Idealize.ShloMosaic Idealize.ShloMosaic.ValueIdx

/-! ### 1. The float words -/

/-- The word of +0.0 denotes the real 0. -/
theorem word_zero : Ideal.ofBits .f32 0x00000000#32 = ((0 : ℝ) : EReal) := by
  rw [Ideal.ofBits_zero_f32, EReal.coe_zero]

/-- The word of 1.0 denotes the real 1. -/
theorem word_one : Ideal.ofBits .f32 0x3F800000#32 = ((1 : ℝ) : EReal) := by
  simp [Ideal.ofBits, Ideal.ieee, -EReal.coe_mul]; norm_num

/-- The word of 2.0 denotes the real 2. -/
theorem word_two : Ideal.ofBits .f32 0x40000000#32 = ((2 : ℝ) : EReal) := by
  simp [Ideal.ofBits, Ideal.ieee, -EReal.coe_mul]; norm_num

/-- The word of 512.0 denotes the real 512. -/
theorem word_512 : Ideal.ofBits .f32 0x44000000#32 = ((512 : ℝ) : EReal) := by
  simp [Ideal.ofBits, Ideal.ieee, -EReal.coe_mul]; norm_num

/-- The word of 2⁻⁹ denotes the real 1/512. -/
theorem word_inv512 : Ideal.ofBits .f32 0x3B000000#32 = ((1 / 512 : ℝ) : EReal) := by
  simp [Ideal.ofBits, Ideal.ieee, -EReal.coe_mul]; norm_num

/-! ### 2. The hard mask is 0 or 1 -/

/-- The larger of two coerced reals is the coercion of the larger. -/
theorem max_coe_coe (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The smaller of two coerced reals is the coercion of the smaller. -/
theorem min_coe_coe (a b : ℝ) : min ((a : ℝ) : EReal) ((b : ℝ) : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Rounding to the nearest integer, ties to even, sends the unit interval into {0, 1}: below 1
    the integer part is 0 and the result is 0 or 0 + 1; at 1 the integer part is 1 and the
    remainder 0 is below one half. -/
theorem roundHalfEven_unit {t : ℝ} (h0 : 0 ≤ t) (h1 : t ≤ 1) :
    Ideal.roundHalfEven t = 0 ∨ Ideal.roundHalfEven t = 1 := by
  rcases lt_or_eq_of_le h1 with h | rfl
  · have hf : ⌊t⌋ = 0 := Int.floor_eq_iff.2 ⟨by simpa using h0, by simpa using h⟩
    unfold Ideal.roundHalfEven
    simp only [hf]
    split_ifs <;> simp
  · right
    unfold Ideal.roundHalfEven
    simp

/-- A real clipped to the unit interval and then rounded is the real 0 or the real 1. -/
theorem clip_round_coe (r : ℝ) :
    ∃ m : ℝ, (m = 0 ∨ m = 1) ∧
      Ideal.liftRound Ideal.roundHalfEven
        (min (Ideal.ofBits .f32 0x3F800000#32) (max (Ideal.ofBits .f32 0x00000000#32) ((r : ℝ) : EReal)))
        = ((m : ℝ) : EReal) := by
  rw [word_one, word_zero, max_coe_coe, min_coe_coe, Ideal.liftRound_coe]
  have h0 : (0 : ℝ) ≤ min 1 (max 0 r) := le_min zero_le_one (le_max_left 0 r)
  have h1 : min 1 (max 0 r) ≤ (1 : ℝ) := min_le_left 1 _
  refine ⟨((Ideal.roundHalfEven (min 1 (max 0 r)) : ℤ) : ℝ), ?_, rfl⟩
  rcases roundHalfEven_unit h0 h1 with h | h
  · left; rw [h]; norm_num
  · right; rw [h]; norm_num

/-- On a real entry of M the hard mask is the real 0 or the real 1. -/
theorem hard_coe (M : FVec Ideal SX .f32) (hM : ∀ i, ∃ r : ℝ, M i = (r : EReal)) (k : Fin 512)
    (d : Fin 1024) : ∃ m : ℝ, (m = 0 ∨ m = 1) ∧ hard M k d = ((m : ℝ) : EReal) := by
  obtain ⟨r, hr⟩ := hM (ix2 k d)
  unfold hard
  rw [hr]
  exact clip_round_coe r

/-! ### 3. The centroid numerator and the two centroids, on real data -/

section Centroid
variable {X : FVec Ideal SX .f32} {U : FVec Ideal SU .f32} {x : SX.Idx → ℝ} {u : SU.Idx → ℝ}

/-- The centroid numerator of real data is the coercion of the real sum of products. -/
theorem usum_coe (hx : ∀ i, X i = ((x i : ℝ) : EReal)) (hu : ∀ i, U i = ((u i : ℝ) : EReal))
    (k : Fin 512) (d : Fin 1024) :
    usum X U k d = ((∑ b : Fin 512, u (ix2 b k) * x (ix2 b d) : ℝ) : EReal) := by
  unfold usum
  simp only [hx, hu, ← EReal.coe_mul]
  rw [← Cert.LibMoments.coe_sum]

/-- The quotient centroid of real data is the coercion of the real numerator over 512. -/
theorem cenQ_coe (hx : ∀ i, X i = ((x i : ℝ) : EReal)) (hu : ∀ i, U i = ((u i : ℝ) : EReal))
    (k : Fin 512) (d : Fin 1024) :
    cenQ X U k d = (((∑ b : Fin 512, u (ix2 b k) * x (ix2 b d)) / 512 : ℝ) : EReal) := by
  unfold cenQ
  rw [usum_coe hx hu, word_512, Cert.LibMoments.div_coe_coe _ (by norm_num)]

/-- The product centroid of real data is the coercion of the same real: s · (1/512) = s / 512. -/
theorem cenP_coe (hx : ∀ i, X i = ((x i : ℝ) : EReal)) (hu : ∀ i, U i = ((u i : ℝ) : EReal))
    (k : Fin 512) (d : Fin 1024) :
    cenP X U k d = (((∑ b : Fin 512, u (ix2 b k) * x (ix2 b d)) / 512 : ℝ) : EReal) := by
  unfold cenP
  rw [usum_coe hx hu, word_inv512, ← EReal.coe_mul]
  congr 1
  ring

end Centroid

/-! ### 4. The law over the reals and over the extended reals -/

section Law
variable {ι : Type*} [Fintype ι]

/-- Over the reals, for a mask m with m · m = m: the sum of the squared masked differences is
    the sum of the masked squares, minus twice the masked cross term, plus the masked squared
    centres. -/
theorem real_masked_sq (x c m : ι → ℝ) (hm : ∀ d, m d * m d = m d) :
    ((∑ d, (x d * x d) * m d) - 2 * (∑ d, x d * (m d * c d))) + (∑ d, m d * (c d * c d))
      = ∑ d, ((x d - c d) * m d) * ((x d - c d) * m d) := by
  rw [Finset.mul_sum, ← Finset.sum_sub_distrib, ← Finset.sum_add_distrib]
  refine Finset.sum_congr rfl fun d _ => ?_
  have e : ((x d - c d) * m d) * ((x d - c d) * m d)
      = ((x d - c d) * (x d - c d)) * (m d * m d) := by ring
  rw [e, hm d]
  ring

/-- The same over the extended reals, every entry a coerced real. -/
theorem ereal_masked_sq (x c m : ι → ℝ) (hm : ∀ d, m d * m d = m d) :
    ((∑ d, (((x d : ℝ) : EReal) * ((x d : ℝ) : EReal)) * ((m d : ℝ) : EReal))
        - ((2 : ℝ) : EReal) * (∑ d, ((x d : ℝ) : EReal) * (((m d : ℝ) : EReal) * ((c d : ℝ) : EReal))))
      + (∑ d, ((m d : ℝ) : EReal) * (((c d : ℝ) : EReal) * ((c d : ℝ) : EReal)))
      = ∑ d, ((((x d : ℝ) : EReal) - ((c d : ℝ) : EReal)) * ((m d : ℝ) : EReal))
          * ((((x d : ℝ) : EReal) - ((c d : ℝ) : EReal)) * ((m d : ℝ) : EReal)) := by
  simp only [← EReal.coe_mul, ← EReal.coe_sub, ← Cert.LibMoments.coe_sum, ← EReal.coe_add]
  rw [real_masked_sq x c m hm]

end Law

/-! ### 5. The two forms agree on real data -/

/-- Entry by entry, the expanded form equals the quotient form when X, U and M are real. -/
theorem kerDist_eq_refDist (X : FVec Ideal SX .f32) (U : FVec Ideal SU .f32) (M : FVec Ideal SX .f32)
    (hX : ∀ i, ∃ r : ℝ, X i = (r : EReal)) (hU : ∀ i, ∃ r : ℝ, U i = (r : EReal)) (hM : ∀ i, ∃ r : ℝ, M i = (r : EReal))
    (b k : Fin 512) : kerDist X U M b k = refDist X U M b k := by
  choose x hx using hX
  choose u hu using hU
  choose m hm01 hm using fun d : Fin 1024 => hard_coe M hM k d
  have hmm : ∀ d, m d * m d = m d := fun d => by
    rcases hm01 d with h | h <;> rw [h] <;> norm_num
  unfold kerDist refDist
  simp only [cenQ_coe hx hu, cenP_coe hx hu, hm, hx, word_two]
  exact ereal_masked_sq (fun d => x (ix2 b d))
    (fun d => (∑ b' : Fin 512, u (ix2 b' k) * x (ix2 b' d)) / 512) m hmm

/-- As arrays, the expanded form equals the quotient form when X, U and M are real. -/
theorem kerArr_eq_refArr (X : FVec Ideal SX .f32) (U : FVec Ideal SU .f32) (M : FVec Ideal SX .f32)
    (hX : ∀ i, ∃ r : ℝ, X i = (r : EReal)) (hU : ∀ i, ∃ r : ℝ, U i = (r : EReal)) (hM : ∀ i, ∃ r : ℝ, M i = (r : EReal)) :
    kerArr X U M = refArr X U M := by
  funext i
  exact kerDist_eq_refDist X U M hX hU hM (i 0) (i 1)

end Cert.MaskedDist

end
-- ==== Proof.Finite.lean ====
/-
  The precondition is the conjunction of three tests "every entry has absolute value below +∞", one per input array.
  When it holds, every entry of every input is a real number: neither of the two infinities of the extended reals.
-/
import proofs.«110606_j33285996544551_1_alg».proof.Pre_finite_inputs
import Idealize.ShloMosaic.PureOps.Ideal
import Idealize.ShloMosaic.PureOps.Ideal.Laws
import Idealize.ShloMosaic.Lib.ValueIdx
import Idealize.ShloMosaic.Lib.ReduceAll

namespace Cert.MaskedDist.Finite

open Idealize.ShloMosaic
open Cert.Pre_finite_inputs (S_ S512x1024 S512x512)

/-- The word with all exponent bits set and no fraction bit reads as +∞. -/
theorem inf_word : Ideal.ofBits .f32 0x7F800000#32 = (⊤ : EReal) := by
  simp [Ideal.ofBits, Ideal.ieee]

/-- An extended real whose absolute value, max x (−x), lies strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The ordered comparison "less than" of two extended reals, when it answers 1, says the first is below the second; here
    the first is an absolute value, max x (−x). -/
theorem lt_of_olt {x y : EReal} (h : FloatOps.cmpf (F := Ideal) (φ := .f32) .olt (FloatOps.hostAbsf (F := Ideal) (φ := .f32) x) y = 1#1) :
    max x (-x) < y := by
  rw [Ideal.cmpf_def, Ideal.hostAbsf_def, Ideal.absf_def] at h
  by_contra hn
  simp [Ideal.cmp, hn] at h

/-- The shape of a scalar has exactly one index. -/
instance subsingleton_scalar_idx : Subsingleton S_.Idx := ⟨fun a b => funext fun d => d.elim0⟩

/-- One array: if the conjunction over all entries of "|x i| < +∞" comes out true, every entry is real. -/
theorem real_of_all {S : Shape} {axes : List (Fin S.rank)}
    (hb : S_.BroadcastsInDim S (![] : Fin 0 → Fin S.rank)) (hr : S.ReducesTo axes S_) (hu : 0 < S_.numel)
    (x : FVec Ideal S .f32)
    (h : Host.reduce IntOp.andi (cmpf .olt (Host.absf x) (broadcastInDim S ![] hb (constant S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 h i
  have hc : broadcastInDim S ![] hb (constant (F := Ideal) S_ .f32 0x7F800000#32) i = Ideal.ofBits .f32 0x7F800000#32 := rfl
  rw [ValueIdx.cmpf_apply, hc, inf_word] at hi
  exact real_of_abs_lt_top (x i) (lt_of_olt hi)

/-- The precondition holding (its one entry is 1) makes every entry of the three inputs a real number. -/
theorem real_of_pre [Cert.Pre_finite_inputs.Facts]
    (x0 : FVec Ideal Cert.Pre_finite_inputs.S512x1024 .f32) (x1 : FVec Ideal Cert.Pre_finite_inputs.S512x512 .f32) (x2 : FVec Ideal Cert.Pre_finite_inputs.S512x1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all _ _ _ x0 h0', real_of_all _ _ _ x1 h1, real_of_all _ _ _ x2 h2⟩

end Cert.MaskedDist.Finite
-- ==== Proof.RefValue.lean ====
/-
  The reference program computes the quotient form of the masked squared distance.

  The reference takes X : [512, 1024], U : [512, 512], M : [512, 1024] and forms, one operation at a time,
    s[k, d] = ∑_b U[b, k] · X[b, d],   c[k, d] = s[k, d] / 512,
    h[k, d] = roundHalfEven (min 1 (max 0 M[k, d])),
    D[b, k] = 0 + ∑_d ((X[b, d] − c[k, d]) · h[k, d]) · ((X[b, d] − c[k, d]) · h[k, d]).
  Reading the result at an index (b, k) through each operation in turn, every broadcast only renames the
  index it reads, so the element is the sum over d written above; that sum is, term for term, the
  specification's quotient form. No algebra is used and no finiteness of the data is needed.
-/
import proofs.«110606_j33285996544551_1_alg».proof.Proof.Gen.ReferenceIdeal.Read
import proofs.«110606_j33285996544551_1_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

theorem ref_eq (X : FVec Ideal Cert.ReferenceIdeal.S512x1024 .f32) (U : FVec Ideal Cert.ReferenceIdeal.S512x512 .f32)
    (M : FVec Ideal Cert.ReferenceIdeal.S512x1024 .f32) :
    Cert.ReferenceIdeal.Read.val_main_v14 (F := Ideal) X U M = Cert.MaskedDist.refArr X U M := by
  funext i
  obtain ⟨b, k, rfl⟩ : ∃ (b : Fin 512) (k : Fin 512), i = ix2 b k := ⟨i 0, i 1, eq_ix2 i⟩
  -- the sum over d starts from the zero word, so the element is the bare sum
  rw [val_main_v14_apply, val_main_cst_2_apply, Ideal.ofBits_def, Ideal.ofBits_zero_f32, zero_add]
  show _ = Cert.MaskedDist.refDist X U M b k
  unfold Cert.MaskedDist.refDist Cert.MaskedDist.cenQ Cert.MaskedDist.hard Cert.MaskedDist.usum
  refine Finset.sum_congr rfl fun d _ => ?_
  -- each operand is read at an index built from the coordinates: X at (b, d), the mask at (k, d),
  -- and inside the centroid numerator U at (b', k) and X at (b', d)
  have eX : idx_main_v5 (idx_main_v7 (idx_main_v14 (ix2 b k) d)) = ix2 b d :=
    funext fun a => Fin.ext (by match a with | ⟨0, _⟩ => rfl | ⟨1, _⟩ => rfl)
  have eM : idx_main_v10 (idx_main_v11 (idx_main_v14 (ix2 b k) d)) = ix2 k d :=
    funext fun a => Fin.ext (by match a with | ⟨0, _⟩ => rfl | ⟨1, _⟩ => rfl)
  have eU : ∀ b' : Fin 512, lidx_main_v0 (idx_main_v6 (idx_main_v8 (idx_main_v14 (ix2 b k) d))) b' = ix2 b' k :=
    fun b' => funext fun a => Fin.ext (by match a with | ⟨0, _⟩ => rfl | ⟨1, _⟩ => rfl)
  have eXs : ∀ b' : Fin 512, ridx_main_v0 (idx_main_v6 (idx_main_v8 (idx_main_v14 (ix2 b k) d))) b' = ix2 b' d :=
    fun b' => funext fun a => Fin.ext (by match a with | ⟨0, _⟩ => rfl | ⟨1, _⟩ => rfl)
  simp only [val_main_v13_apply, val_main_v12_apply, val_main_v9_apply, val_main_v7_apply, val_main_v5_apply,
    val_main_v8_apply, val_main_v6_apply, val_main_v2_apply, val_main_v0_apply, val_main_v1_apply, val_main_cst_apply,
    val_main_v11_apply, val_main_v10_apply, val_main_v4_apply, val_main_v3_apply, val_main_call0_v4_apply,
    val_main_call0_v3_apply, val_main_cst_1_apply, val_main_call0_v2_apply, val_main_call0_v1_apply,
    val_main_call0_v0_apply, val_main_cst_0_apply,
    Ideal.mulf_def, Ideal.subf_def, Ideal.hostDivf_def, Ideal.maximumf_def, Ideal.minimumf_def,
    Ideal.hostUnary_roundeven_def, Ideal.ofBits_def, eX, eM, eU, eXs]

end Cert.ReferenceIdeal.RefValue

end
-- ==== Proof.Region0.lean ====
/-
  The arrays the centroid kernel's region leaves.

  The region's grid has one point and every window's block is its whole array, so each input block is the array the
  region finds and each output array ends holding exactly what the body stored: the hard mask of M, the masked centroid
  of X, U, M, and the row of sums, each as a function of the arrays at the region's entry.
-/
import proofs.«110606_j33285996544551_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the one grid point: every window's block index is zero on both axes. -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The input blocks are the arrays -/

theorem xblock_eq (c : Dev nD) (t : Fin cfg0.N) : iblk0 V c 0 t = V c main_arg0 := by
  obtain ⟨e0, e1, -⟩ := index_zero t
  funext y
  show V c main_arg0 (((cfg0.win 0).blk t).view.emb y) = V c main_arg0 y
  refine congrArg (V c main_arg0) ?_
  funext a; apply Fin.ext
  match a with
  | ⟨0, _⟩ => show win0_0.index t (0 : Fin 2) * 512 + 1 * (y 0).val = (y 0).val; omega
  | ⟨1, _⟩ => show win0_0.index t (1 : Fin 2) * 1024 + 1 * (y 1).val = (y 1).val; omega

theorem ublock_eq (c : Dev nD) (t : Fin cfg0.N) : iblk0 V c 1 t = V c main_arg1 := by
  obtain ⟨-, -, e0, e1, -⟩ := index_zero t
  funext y
  show V c main_arg1 (((cfg0.win 1).blk t).view.emb y) = V c main_arg1 y
  refine congrArg (V c main_arg1) ?_
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem mblock_eq (c : Dev nD) (t : Fin cfg0.N) : iblk0 V c 2 t = V c main_arg2 := by
  obtain ⟨-, -, -, -, e0, e1, -⟩ := index_zero t
  funext y
  show V c main_arg2 (((cfg0.win 2).blk t).view.emb y) = V c main_arg2 y
  refine congrArg (V c main_arg2) ?_
  funext a; apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-! ## Reading a whole-array block of an output window gives the array back -/

theorem read_whole3 (t : Fin cfg0.N) (G : Vec Ideal S512x1024 .f32) :
    ((cfg0.win 3).blk t).view.read (Elt Ideal) G = G := by
  obtain ⟨-, -, -, -, -, -, e0, e1, -⟩ := index_zero t
  funext y
  show G (((cfg0.win 3).blk t).view.emb y) = G y
  refine congrArg G ?_
  funext a; apply Fin.ext
  match a with
  | ⟨0, _⟩ => show win0_3.index t (0 : Fin 2) * 512 + 1 * (y 0).val = (y 0).val; omega
  | ⟨1, _⟩ => show win0_3.index t (1 : Fin 2) * 1024 + 1 * (y 1).val = (y 1).val; omega

theorem read_whole4 (t : Fin cfg0.N) (G : Vec Ideal S512x1024 .f32) :
    ((cfg0.win 4).blk t).view.read (Elt Ideal) G = G := by
  obtain ⟨-, -, -, -, -, -, -, -, e0, e1, -⟩ := index_zero t
  funext y
  show G (((cfg0.win 4).blk t).view.emb y) = G y
  refine congrArg G ?_
  funext a; apply Fin.ext
  match a with
  | ⟨0, _⟩ => show win0_4.index t (0 : Fin 2) * 512 + 1 * (y 0).val = (y 0).val; omega
  | ⟨1, _⟩ => show win0_4.index t (1 : Fin 2) * 1024 + 1 * (y 1).val = (y 1).val; omega

theorem read_whole5 (t : Fin cfg0.N) (G : Vec Ideal S1x512 .f32) :
    ((cfg0.win 5).blk t).view.read (Elt Ideal) G = G := by
  obtain ⟨-, -, -, -, -, -, -, -, -, -, e0, e1⟩ := index_zero t
  funext y
  show G (((cfg0.win 5).blk t).view.emb y) = G y
  refine congrArg G ?_
  funext a; apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

/-! ## What the one point writes back -/

theorem flushed3_eq (c : Dev nD) (t : Fin cfg0.N) :
    (dat0 V c).flushed 3 t = ((cfg0.win 3).blk t).view.read (Elt Ideal) (k0_pay2 (F := Ideal) (V c main_arg2)) := by
  show (cfg0.win 3).cut (grid0.coords t) ((dat0 V c).after 3 t) = _
  rw [after0_3, read_whole3]
  unfold out0_3
  rw [View.canon_unit_zero zero_offsets]
  simp only [View.ld_unit_zero (S := S512x1024) zero_offsets]
  rw [mblock_eq]
  rfl

theorem flushed4_eq (c : Dev nD) (t : Fin cfg0.N) :
    (dat0 V c).flushed 4 t
      = ((cfg0.win 4).blk t).view.read (Elt Ideal) (k0_pay3 (F := Ideal) (V c main_arg0) (V c main_arg1) (V c main_arg2)) := by
  show (cfg0.win 4).cut (grid0.coords t) ((dat0 V c).after 4 t) = _
  rw [after0_4, read_whole4]
  unfold out0_4
  rw [View.canon_unit_zero zero_offsets]
  simp only [View.ld_unit_zero (S := S512x1024) zero_offsets, View.ld_unit_zero (S := S512x512) zero_offsets]
  rw [xblock_eq, ublock_eq, mblock_eq]
  rfl

theorem flushed5_eq (c : Dev nD) (t : Fin cfg0.N) :
    (dat0 V c).flushed 5 t
      = ((cfg0.win 5).blk t).view.read (Elt Ideal) (k0_pay4 (F := Ideal) (V c main_arg0) (V c main_arg1) (V c main_arg2)) := by
  show (cfg0.win 5).cut (grid0.coords t) ((dat0 V c).after 5 t) = _
  rw [after0_5, read_whole5]
  unfold out0_5
  rw [View.canon_unit_zero zero_offsets]
  simp only [View.ld_unit_zero (S := S512x1024) zero_offsets, View.ld_unit_zero (S := S512x512) zero_offsets]
  rw [xblock_eq, ublock_eq, mblock_eq]
  rfl

/-! ## The one point's blocks cover the arrays -/

theorem point0 : (0 : Nat) < cfg0.N := by decide

theorem cover3 (i : S512x1024.Idx) :
    ∃ t : Fin cfg0.N, (cfg0.win 3).flush t = true ∧ i ∈ ((cfg0.win 3).blk t).view.set := by
  refine ⟨⟨0, point0⟩, flush0_3 _, ?_⟩
  obtain ⟨-, -, -, -, -, -, e0, e1, -⟩ := index_zero ⟨0, point0⟩
  show i ∈ ((View.whole main_v0_0).slice (win0_3.rect ⟨0, point0⟩)).set
  rw [View.set_slice_whole, Rect.mem_set_unit]
  intro a
  match a with
  | ⟨0, _⟩ =>
    show win0_3.index ⟨0, point0⟩ (0 : Fin 2) * 512 ≤ (i 0).val ∧ (i 0).val < win0_3.index ⟨0, point0⟩ (0 : Fin 2) * 512 + 512
    have := ValueIdx.idx2_lt0 i; omega
  | ⟨1, _⟩ =>
    show win0_3.index ⟨0, point0⟩ (1 : Fin 2) * 1024 ≤ (i 1).val ∧ (i 1).val < win0_3.index ⟨0, point0⟩ (1 : Fin 2) * 1024 + 1024
    have := ValueIdx.idx2_lt1 i; omega

theorem cover4 (i : S512x1024.Idx) :
    ∃ t : Fin cfg0.N, (cfg0.win 4).flush t = true ∧ i ∈ ((cfg0.win 4).blk t).view.set := by
  refine ⟨⟨0, point0⟩, flush0_4 _, ?_⟩
  obtain ⟨-, -, -, -, -, -, -, -, e0, e1, -⟩ := index_zero ⟨0, point0⟩
  show i ∈ ((View.whole main_v0_1).slice (win0_4.rect ⟨0, point0⟩)).set
  rw [View.set_slice_whole, Rect.mem_set_unit]
  intro a
  match a with
  | ⟨0, _⟩ =>
    show win0_4.index ⟨0, point0⟩ (0 : Fin 2) * 512 ≤ (i 0).val ∧ (i 0).val < win0_4.index ⟨0, point0⟩ (0 : Fin 2) * 512 + 512
    have := ValueIdx.idx2_lt0 i; omega
  | ⟨1, _⟩ =>
    show win0_4.index ⟨0, point0⟩ (1 : Fin 2) * 1024 ≤ (i 1).val ∧ (i 1).val < win0_4.index ⟨0, point0⟩ (1 : Fin 2) * 1024 + 1024
    have := ValueIdx.idx2_lt1 i; omega

theorem cover5 (i : S1x512.Idx) :
    ∃ t : Fin cfg0.N, (cfg0.win 5).flush t = true ∧ i ∈ ((cfg0.win 5).blk t).view.set := by
  refine ⟨⟨0, point0⟩, flush0_5 _, ?_⟩
  obtain ⟨-, -, -, -, -, -, -, -, -, -, e0, e1⟩ := index_zero ⟨0, point0⟩
  show i ∈ ((View.whole main_v0_2).slice (win0_5.rect ⟨0, point0⟩)).set
  rw [View.set_slice_whole, Rect.mem_set_unit]
  intro a
  match a with
  | ⟨0, _⟩ =>
    show win0_5.index ⟨0, point0⟩ (0 : Fin 2) * 1 ≤ (i 0).val ∧ (i 0).val < win0_5.index ⟨0, point0⟩ (0 : Fin 2) * 1 + 1
    have := ValueIdx.idx2_lt0 i; omega
  | ⟨1, _⟩ =>
    show win0_5.index ⟨0, point0⟩ (1 : Fin 2) * 512 ≤ (i 1).val ∧ (i 1).val < win0_5.index ⟨0, point0⟩ (1 : Fin 2) * 512 + 512
    have := ValueIdx.idx2_lt1 i; omega

/-! ## The arrays after the region -/

/-- The mask array after the region: the hard mask of the M the region finds. -/
theorem maskArr (c : Dev nD) : (dat0 V c).arrAt 3 cfg0.N = k0_pay2 (F := Ideal) (V c main_arg2) :=
  (dat0 V c).arrAt_eq_of_cover 3 _ (fun t _ => flushed3_eq V c t) cover3

/-- The masked-centroid array after the region. -/
theorem maskedCenArr (c : Dev nD) :
    (dat0 V c).arrAt 4 cfg0.N = k0_pay3 (F := Ideal) (V c main_arg0) (V c main_arg1) (V c main_arg2) :=
  (dat0 V c).arrAt_eq_of_cover 4 _ (fun t _ => flushed4_eq V c t) cover4

/-- The row of sums after the region. -/
theorem rowSumArr (c : Dev nD) :
    (dat0 V c).arrAt 5 cfg0.N = k0_pay4 (F := Ideal) (V c main_arg0) (V c main_arg1) (V c main_arg2) :=
  (dat0 V c).arrAt_eq_of_cover 5 _ (fun t _ => flushed5_eq V c t) cover5

end Cert.KernelIdeal.Region0

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.LibTransposedDot.lean ====
/-
  A matrix product contracted on the LAST axis of both operands, `A · Bᵀ`, read at an index, and the row forms of a
  column (extended reals, the ideal instance).

  With the dimension numbers "contract axis 1 of the left with axis 1 of the right" an `m × k` by `n × k` product reads,
  at `(p, q)`, `∑ c, A (p, c) * B (q, c)` — the host's `dot_general` and a kernel's product accumulated into a zero splat
  alike. A column `[a, 1]` transposed to the row `[1, a]` reads, at `(u, i)`, the column's entry `i`; that row laid over
  the rows of a `[b, a]` matrix reads, at `(p, c)`, the row's entry `c`; and a column `[a, 1]` reshaped to the vector `[a]`
  reads, at `i`, the column's entry `i`.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

/-! ## `A · Bᵀ` at an index -/

/-- The host's `dot_general` contracting axis 1 of both operands, read at `(p, q)`. -/
theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A kernel's product with the same dimension numbers into a zero splat, read at `(p, q)`: the same sum. -/
theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

/-! ## A column as a row, and the row over every row of a matrix -/

/-- A column `[a, 1]` transposed to the row `[1, a]` reads, at `(u, i)`, the column at `(i, 0)`. -/
theorem transpose_a1_1a_apply {a : ℕ} (v : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] v h (ix2 u i) = v (ix2 i (0 : Fin 1)) := by
  refine transpose_apply [1, 0] v h (ix2 u i) (ix2 i (0 : Fin 1)) fun b => ?_
  match b with
  | ⟨0, _⟩ =>
    show (0 : ℕ) = u.val
    omega
  | ⟨1, _⟩ => rfl

/-- A row `[1, a]` broadcast over the rows of `[b, a]` reads, at `(p, c)`, the row at `(0, c)`. -/
theorem broadcastTo_1a_ba_apply {a b : ℕ} (v : (⟨2, ![1, a]⟩ : Shape).Idx → α)
    (h : (⟨2, ![1, a]⟩ : Shape).Broadcasts ⟨2, ![b, a]⟩) (p : Fin b) (c : Fin a) :
    broadcastTo ⟨2, ![b, a]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if a = 1 then 0 else c.val
    split
    · have := c.isLt; omega
    · rfl

/-- A column `[a, 1]` reshaped to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Cert.LibTransposedDot

end
-- ==== Proof.LibFirstAxisDot.lean ====
/-
  A matrix product contracted on the FIRST axis of both operands, `Aᵀ · B`, read at an index (extended reals, the
  ideal instance).

  With the dimension numbers "contract axis 0 of the left with axis 0 of the right" a `k × m` by `k × n` product reads,
  at `(p, q)`, `∑ c, A (c, p) * B (c, q)` — the host's `dot_general` and a kernel's product accumulated into a zero
  splat alike.
-/
import Idealize.ShloMosaic.PureOps.Ideal.Laws
import Idealize.ShloMosaic.Lib.ValueIdx
import Idealize.ShloMosaic.Lib.KernelVsHost

noncomputable section

namespace Cert.LibFirstAxisDot

open Idealize.ShloMosaic Idealize.ShloMosaic.ValueIdx

/-- The dimension numbers `<[0], [0], [1], [1], [], []>`: `K×M` by `K×N`, both operands contracted on their first axis. -/
def firstAxes (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

/-- The host's `dot_general` contracting axis 0 of both operands, read at `(p, q)`. -/
theorem dotGeneral_firstAxes_apply {k m n : ℕ} {φ₁ φ₂ : FTy} (prec : Option ContractPrecision)
    (A : FVec Ideal ⟨2, ![k, m]⟩ φ₁) (B : FVec Ideal ⟨2, ![k, n]⟩ φ₂) (p : Fin m) (q : Fin n) :
    Host.dotGeneral (firstAxes k m n) prec A B (ix2 p q) = ∑ c : Fin k, A (ix2 c p) * B (ix2 c q) := by
  show FloatOps.dotGeneral _ prec _ A B (ix2 p q) = _
  rw [Ideal.dotGeneral_apply, ← Equiv.sum_comp (contrEquiv1 (firstAxes k m n) k rfl rfl).symm]
  refine Finset.sum_congr rfl fun c _ => ?_
  have c2 := contrEquiv1_symm_val (firstAxes k m n) k rfl rfl c
  have l2 : (firstAxes k m n).lhsIdx (ix2 p q) ((contrEquiv1 _ k rfl rfl).symm c) = ix2 c p := by
    funext ax; apply Fin.ext
    match ax with
    | ⟨0, _⟩ => simp [DotDims.lhsIdx, firstAxes]; exact c2
    | ⟨1, _⟩ => simp [DotDims.lhsIdx, firstAxes]; rfl
  have r2 : (firstAxes k m n).rhsIdx (ix2 p q) ((contrEquiv1 _ k rfl rfl).symm c) = ix2 c q := by
    funext ax; apply Fin.ext
    match ax with
    | ⟨0, _⟩ => simp [DotDims.rhsIdx, firstAxes]; exact c2
    | ⟨1, _⟩ => simp [DotDims.rhsIdx, firstAxes]; rfl
  rw [l2, r2]

/-- A kernel's product with the same dimension numbers into a zero splat, read at `(p, q)`: the same sum. -/
theorem matmul_firstAxes_apply {k m n : ℕ} {φ₁ φ₂ : FTy} (d : DotDims ⟨2, ![k, m]⟩ ⟨2, ![k, n]⟩ ⟨2, ![m, n]⟩)
    (hd : d = firstAxes k m n) (prec : Option ContractPrecision)
    (A : FVec Ideal ⟨2, ![k, m]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 c p) * B (ix2 c q) := by
  subst hd
  rw [matmul_zero_eq_dotGeneral]
  exact dotGeneral_firstAxes_apply prec A B p q

end Cert.LibFirstAxisDot

end
-- ==== Proof.KernelPay.lean ====
/-
  What the two kernel bodies compute, read at an index on the extended reals.

  The centroid kernel's stores are the hard mask h (pointwise), the masked centroid h · c' with
  c'[k, d] = (∑_b U[b, k] · X[b, d]) · 2⁻⁹ (a product contracted on the first axis of both operands, then a splat
  factor), and the row of sums t[k] = ∑_d h[k, d] · c'[k, d]² (a lane sum kept as a column, then transposed to a row).
  The distance kernel's store is, at row r of its block and column k,
    (∑_d x[r, d]² · h[k, d]  −  2 · ∑_d x[r, d] · w[k, d])  +  t[0, k]
  — two products contracted on the last axis of both operands and the row t laid over the block's rows.
-/
import proofs.«110606_j33285996544551_1_alg».proof.Proof.Gen.KernelIdeal.Skeleton
import proofs.«110606_j33285996544551_1_alg».proof.Proof.Spec
import proofs.«110606_j33285996544551_1_alg».proof.Proof.LibKeepdims
import proofs.«110606_j33285996544551_1_alg».proof.Proof.LibTransposedDot
import proofs.«110606_j33285996544551_1_alg».proof.Proof.LibFirstAxisDot
import Idealize.ShloMosaic.Lib.Pipeline.Value

noncomputable section

open scoped BigOperators

namespace Cert.KernelIdeal.Pay

open Cert.KernelIdeal Cert.KernelIdeal.Gen Cert.MaskedDist
open Idealize.ShloMosaic Idealize.ShloMosaic.ValueIdx

/-- The mask store, at (k, d): M clipped to [0, 1] and rounded. -/
theorem mask_apply (x2 : Vec Ideal S512x1024 .f32) (k : Fin 512) (d : Fin 1024) :
    k0_pay2 (F := Ideal) x2 (ix2 k d) = hard x2 k d := rfl

/-- The centroid, at (k, d): the first-axis product of U and X times the word of 2⁻⁹. -/
theorem cen_apply (x0 : Vec Ideal S512x1024 .f32) (x1 : Vec Ideal S512x512 .f32) (k : Fin 512) (d : Fin 1024) :
    k0_pay1 (F := Ideal) x0 x1 (ix2 k d) = cenP x0 x1 k d := by
  unfold k0_pay1 cenP usum
  refine congrArg (· * Ideal.ofBits .f32 0x3B000000#32) ?_
  exact Cert.LibFirstAxisDot.matmul_firstAxes_apply dot_S512x512_S512x1024_S512x1024_0_0_1_1_n_n rfl none _ _ k d

/-- The masked-centroid store, at (k, d). -/
theorem maskedCen_apply (x0 : Vec Ideal S512x1024 .f32) (x1 : Vec Ideal S512x512 .f32) (x2 : Vec Ideal S512x1024 .f32)
    (k : Fin 512) (d : Fin 1024) :
    k0_pay3 (F := Ideal) x0 x1 x2 (ix2 k d) = hard x2 k d * cenP x0 x1 k d := by
  unfold k0_pay3
  show k0_pay2 (F := Ideal) x2 (ix2 k d) * k0_pay1 (F := Ideal) x0 x1 (ix2 k d) = _
  rw [mask_apply, cen_apply]

/-- The row of sums, at (0, k): the lane sum over d of h · c'². -/
theorem rowSum_apply (x0 : Vec Ideal S512x1024 .f32) (x1 : Vec Ideal S512x512 .f32) (x2 : Vec Ideal S512x1024 .f32)
    (k : Fin 512) :
    k0_pay4 (F := Ideal) x0 x1 x2 (ix2 (0 : Fin 1) k) = ∑ d : Fin 1024, hard x2 k d * (cenP x0 x1 k d * cenP x0 x1 k d) := by
  unfold k0_pay4
  refine (Cert.LibTransposedDot.transpose_a1_1a_apply _ _ (0 : Fin 1) k).trans ?_
  refine (Cert.LibKeepdims.shapeCast_a_a1_apply _ _ k (0 : Fin 1)).trans ?_
  refine (Ideal.multiReduction_add_single _ _ _ _ _ (ix1 k)).trans ?_
  refine Finset.sum_congr rfl fun (d : Fin 1024) _ => ?_
  refine (congrArg (mulf (k0_pay2 (F := Ideal) x2) (mulf (k0_pay1 (F := Ideal) x0 x1) (k0_pay1 (F := Ideal) x0 x1)))
    (Cert.LibKeepdims.lift_ix1 _ k d)).trans ?_
  show k0_pay2 (F := Ideal) x2 (ix2 k d) * (k0_pay1 (F := Ideal) x0 x1 (ix2 k d) * k0_pay1 (F := Ideal) x0 x1 (ix2 k d)) = _
  rw [mask_apply, cen_apply]

/-- The distance store, at row r of the block and column k. -/
theorem dist_apply (v0 : Vec Ideal S128x1024 .f32) (v1 : Vec Ideal S512x1024 .f32) (v3 : Vec Ideal S512x1024 .f32)
    (v5 : Vec Ideal S1x512 .f32) (r : Fin 128) (k : Fin 512) :
    k1_pay1 (F := Ideal) v0 v1 v3 v5 (ix2 r k)
      = ((∑ d : Fin 1024, (v0 (ix2 r d) * v0 (ix2 r d)) * v1 (ix2 k d))
          - Ideal.ofBits .f32 0x40000000#32 * (∑ d : Fin 1024, v0 (ix2 r d) * v3 (ix2 k d)))
        + v5 (ix2 (0 : Fin 1) k) := by
  unfold k1_pay1
  simp only [shapeCast_self]
  refine congrArg₂ (· + ·) (congrArg₂ (· - ·) ?_ (congrArg (Ideal.ofBits .f32 0x40000000#32 * ·) ?_)) ?_
  · exact Cert.LibTransposedDot.matmul_transposedRhs_apply dot_S128x1024_S512x1024_S128x512_1_1_0_0_n_n rfl none _ _ r k
  · exact Cert.LibTransposedDot.matmul_transposedRhs_apply dot_S128x1024_S512x1024_S128x512_1_1_0_0_n_n rfl none _ _ r k
  · exact Cert.LibTransposedDot.broadcastTo_1a_ba_apply _ _ r k

end Cert.KernelIdeal.Pay

end
-- ==== Proof.Region1.lean ====
/-
  The array the distance kernel's region leaves.

  The grid has four points; at point t the X window is rows 128·t … 128·t + 127 of X, the mask, the masked centroid and
  the row of sums are whole, and the output window is rows 128·t … 128·t + 127 of D. So what point t writes back is its
  rows of ONE function of the arrays the region finds,
    D[b, k] = (∑_d x[b, d]² · h[k, d]  −  2 · ∑_d x[b, d] · w[k, d])  +  s[0, k],
  and the four blocks cover D.
-/
import proofs.«110606_j33285996544551_1_alg».proof.Proof.Gen.KernelIdeal.Frame
import proofs.«110606_j33285996544551_1_alg».proof.Proof.KernelPay
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The distance in its expanded form, from X, a mask h, a masked centroid w and a row of sums s. -/
def expanded (x : Vec Ideal S512x1024 .f32) (h : Vec Ideal S512x1024 .f32) (w : Vec Ideal S512x1024 .f32)
    (s : Vec Ideal S1x512 .f32) : Vec Ideal S512x512 .f32 := fun i =>
  ((∑ d : Fin 1024, (x (ix2 (i 0) d) * x (ix2 (i 0) d)) * h (ix2 (i 1) d))
      - Ideal.ofBits .f32 0x40000000#32 * (∑ d : Fin 1024, x (ix2 (i 0) d) * w (ix2 (i 1) d)))
    + s (ix2 (0 : Fin 1) (i 1))

/-- The expanded distance at (b, k). -/
theorem expanded_apply (x : Vec Ideal S512x1024 .f32) (h : Vec Ideal S512x1024 .f32) (w : Vec Ideal S512x1024 .f32)
    (s : Vec Ideal S1x512 .f32) (b k : Fin 512) :
    expanded x h w s (ix2 b k)
      = ((∑ d : Fin 1024, (x (ix2 b d) * x (ix2 b d)) * h (ix2 k d))
          - Ideal.ofBits .f32 0x40000000#32 * (∑ d : Fin 1024, x (ix2 b d) * w (ix2 k d)))
        + s (ix2 (0 : Fin 1) k) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the four grid points: the X window and the output window sit at block row t,
    every other block index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 4 :=
  (by decide +kernel : ∀ t : Fin grid1.N, _)

/-- Row r of point t's block is row 128·t + r of the array. -/
def rowOf (t : Fin cfg1.N) (r : Fin 128) : Fin 512 :=
  ⟨t.val * 128 + r.val, by have := (index_facts t).2.2.2.2.2.2.2.2.2.2; have := r.isLt; omega⟩

/-! ## The input blocks, read at an index -/

theorem xblock_apply (c : Dev nD) (t : Fin cfg1.N) (r : Fin 128) (d : Fin 1024) :
    iblk1 V c 0 t (ix2 r d) = V c main_arg0 (ix2 (rowOf t r) d) := by
  obtain ⟨e0, e1, -⟩ := index_facts t
  show V c main_arg0 (((cfg1.win 0).blk t).view.emb (ix2 r d)) = V c main_arg0 (ix2 (rowOf t r) d)
  refine congrArg (V c main_arg0) ?_
  funext a; apply Fin.ext
  match a with
  | ⟨0, _⟩ => show win1_0.index t (0 : Fin 2) * 128 + 1 * r.val = t.val * 128 + r.val; omega
  | ⟨1, _⟩ => show win1_0.index t (1 : Fin 2) * 1024 + 1 * d.val = d.val; omega

theorem hblock_eq (c : Dev nD) (t : Fin cfg1.N) : iblk1 V c 1 t = V c main_v0_0 := by
  obtain ⟨-, -, e0, e1, -⟩ := index_facts t
  funext y
  show V c main_v0_0 (((cfg1.win 1).blk t).view.emb y) = V c main_v0_0 y
  refine congrArg (V c main_v0_0) ?_
  funext a; apply Fin.ext
  match a with
  | ⟨0, _⟩ => show win1_1.index t (0 : Fin 2) * 512 + 1 * (y 0).val = (y 0).val; omega
  | ⟨1, _⟩ => show win1_1.index t (1 : Fin 2) * 1024 + 1 * (y 1).val = (y 1).val; omega

theorem wblock_eq (c : Dev nD) (t : Fin cfg1.N) : iblk1 V c 2 t = V c main_v0_1 := by
  obtain ⟨-, -, -, -, e0, e1, -⟩ := index_facts t
  funext y
  show V c main_v0_1 (((cfg1.win 2).blk t).view.emb y) = V c main_v0_1 y
  refine congrArg (V c main_v0_1) ?_
  funext a; apply Fin.ext
  match a with
  | ⟨0, _⟩ => show win1_2.index t (0 : Fin 2) * 512 + 1 * (y 0).val = (y 0).val; omega
  | ⟨1, _⟩ => show win1_2.index t (1 : Fin 2) * 1024 + 1 * (y 1).val = (y 1).val; omega

theorem sblock_eq (c : Dev nD) (t : Fin cfg1.N) : iblk1 V c 3 t = V c main_v0_2 := by
  obtain ⟨-, -, -, -, -, -, e0, e1, -⟩ := index_facts t
  funext y
  show V c main_v0_2 (((cfg1.win 3).blk t).view.emb y) = V c main_v0_2 y
  refine congrArg (V c main_v0_2) ?_
  funext a; apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- Entry (r, k) of point t's output block sits at (128·t + r, k) of the array. -/
theorem out_emb (t : Fin cfg1.N) (r : Fin 128) (k : Fin 512) :
    ((cfg1.win 4).blk t).view.emb (ix2 r k) = (ix2 (rowOf t r) k : S512x512.Idx) := by
  obtain ⟨-, -, -, -, -, -, -, -, e0, e1, -⟩ := index_facts t
  funext a; apply Fin.ext
  match a with
  | ⟨0, _⟩ => show win1_4.index t (0 : Fin 2) * 128 + 1 * r.val = t.val * 128 + r.val; omega
  | ⟨1, _⟩ => show win1_4.index t (1 : Fin 2) * 512 + 1 * k.val = k.val; omega

/-! ## What point t writes back -/

theorem flushed_eq (c : Dev nD) (t : Fin cfg1.N) :
    (dat1 V c).flushed 4 t
      = ((cfg1.win 4).blk t).view.read (Elt Ideal)
          (expanded (V c main_arg0) (V c main_v0_0) (V c main_v0_1) (V c main_v0_2)) := by
  show (cfg1.win 4).cut (grid1.coords t) ((dat1 V c).after 4 t) = _
  rw [after1_4]
  unfold out1_4
  rw [View.canon_unit_zero zero_offsets]
  simp only [View.ld_unit_zero (S := S128x1024) zero_offsets, View.ld_unit_zero (S := S512x1024) zero_offsets,
    View.ld_unit_zero (S := S1x512) zero_offsets]
  rw [hblock_eq, wblock_eq, sblock_eq]
  funext j
  obtain ⟨r, k, rfl⟩ : ∃ (r : Fin 128) (k : Fin 512), j = ix2 r k := ⟨j 0, j 1, eq_ix2 j⟩
  refine (Cert.KernelIdeal.Pay.dist_apply (iblk1 V c 0 t) (V c main_v0_0) (V c main_v0_1) (V c main_v0_2) r k).trans ?_
  show _ = expanded (V c main_arg0) (V c main_v0_0) (V c main_v0_1) (V c main_v0_2) (((cfg1.win 4).blk t).view.emb (ix2 r k))
  rw [out_emb]
  refine Eq.trans ?_ (expanded_apply (V c main_arg0) (V c main_v0_0) (V c main_v0_1) (V c main_v0_2) (rowOf t r) k).symm
  simp only [xblock_apply]

/-! ## The four blocks cover the array -/

theorem mem_blk (t : Fin cfg1.N) (i : S512x512.Idx) :
    i ∈ ((cfg1.win 4).blk t).view.set ↔ ∀ a : Fin 2, win1_4.index t a * S128x512.size a ≤ (i a).val ∧ (i a).val < win1_4.index t a * S128x512.size a + S128x512.size a := by
  show i ∈ ((View.whole main_v1).slice (win1_4.rect t)).set ↔ _
  rw [View.set_slice_whole, Rect.mem_set_unit]
  exact Iff.rfl

/-- Every block row is some point's. -/
theorem row_onto : ∀ q : Fin 4, ∃ t : Fin cfg1.N, t.val = q.val :=
  (by decide +kernel : ∀ q : Fin 4, ∃ t : Fin grid1.N, t.val = q.val)

theorem cover (i : S512x512.Idx) :
    ∃ t : Fin cfg1.N, (cfg1.win 4).flush t = true ∧ i ∈ ((cfg1.win 4).blk t).view.set := by
  have hi0 : (i 0).val < 512 := idx2_lt0 i
  have hi1 : (i 1).val < 512 := idx2_lt1 i
  obtain ⟨t, ht⟩ := row_onto ⟨(i 0).val / 128, by omega⟩
  have ht' : t.val = (i 0).val / 128 := ht
  obtain ⟨-, -, -, -, -, -, -, -, e0, e1, -⟩ := index_facts t
  refine ⟨t, flush1_4 t, ?_⟩
  rw [mem_blk]
  intro a
  match a with
  | ⟨0, _⟩ =>
    show win1_4.index t (0 : Fin 2) * 128 ≤ (i 0).val ∧ (i 0).val < win1_4.index t (0 : Fin 2) * 128 + 128
    omega
  | ⟨1, _⟩ =>
    show win1_4.index t (1 : Fin 2) * 512 ≤ (i 1).val ∧ (i 1).val < win1_4.index t (1 : Fin 2) * 512 + 512
    omega

/-! ## The array after the region -/

/-- The result array after the region: the expanded distance of the arrays the region finds. -/
theorem distArr (c : Dev nD) :
    (dat1 V c).arrAt 4 cfg1.N = expanded (V c main_arg0) (V c main_v0_0) (V c main_v0_1) (V c main_v0_2) :=
  (dat1 V c).arrAt_eq_of_cover 4 _ (fun t _ => flushed_eq V c t) cover

end Cert.KernelIdeal.Region1

end
-- ==== Proof.KernelValue.lean ====
/-
  The idealized kernel's result as one function of its arguments.

  Region 1 finds X as launched and, in the three arrays region 0 wrote, the hard mask of M, the masked centroid of
  X, U, M and the row of sums; its output array ends at the expanded distance of those four, which, read at an index, is
  the expanded form of the masked distance of X, U, M. The run of the whole program is then re-posted with the result
  array at that function of the arguments.
-/
import proofs.«110606_j33285996544551_1_alg».proof.Proof.KernelRun
import proofs.«110606_j33285996544551_1_alg».proof.Proof.Region0
import proofs.«110606_j33285996544551_1_alg».proof.Proof.Region1
import proofs.«110606_j33285996544551_1_alg».proof.Proof.KernelPay
import proofs.«110606_j33285996544551_1_alg».proof.Proof.Spec

set_option maxRecDepth 16384

noncomputable section

open scoped BigOperators

namespace Cert.KernelIdeal.KValue

open Cert.KernelIdeal Cert.KernelIdeal.Gen Cert.MaskedDist
open Idealize.ShloMosaic Idealize.ShloMosaic.TcCoe Idealize.SL.Sem Idealize.ShloMosaic.ValueIdx

/-- The expanded distance of X, the hard mask, the masked centroid and the row of sums is the expanded form of the
    masked distance of X, U, M, index by index. -/
theorem expanded_eq_kerArr (X : Vec Ideal S512x1024 .f32) (U : Vec Ideal S512x512 .f32) (M : Vec Ideal S512x1024 .f32) :
    Cert.KernelIdeal.Region1.expanded X (k0_pay2 (F := Ideal) M) (k0_pay3 (F := Ideal) X U M) (k0_pay4 (F := Ideal) X U M)
      = kerArr X U M := by
  funext i
  obtain ⟨b, k, rfl⟩ : ∃ (b : Fin 512) (k : Fin 512), i = ix2 b k := ⟨i 0, i 1, eq_ix2 i⟩
  show ((∑ d : Fin 1024, (X (ix2 b d) * X (ix2 b d)) * k0_pay2 (F := Ideal) M (ix2 k d))
        - Ideal.ofBits .f32 0x40000000#32 * (∑ d : Fin 1024, X (ix2 b d) * k0_pay3 (F := Ideal) X U M (ix2 k d)))
      + k0_pay4 (F := Ideal) X U M (ix2 (0 : Fin 1) k) = kerDist X U M b k
  simp only [Cert.KernelIdeal.Pay.mask_apply, Cert.KernelIdeal.Pay.maskedCen_apply, Cert.KernelIdeal.Pay.rowSum_apply]
  rfl

variable (m : (ℓ : Loc nD τ sig) → Buf (Elt Ideal) ℓ) (ρ : Dev nD → PrngReg)

/-! ## What region 1 finds in its arrays -/

/-- X as launched: region 0 only reads it. -/
theorem entry_x (c : Dev nD) : V1 m ρ c main_arg0 = m ((c : Thread nD τ).loc main_arg0) :=
  (W1_arr m ρ c 0).trans (((dat0 (V0 m ρ) c).arrAt_in 0 rfl _).trans (A_eq0 (V0 m ρ) c 0))

/-- The hard mask of M. -/
theorem entry_h (c : Dev nD) : V1 m ρ c main_v0_0 = k0_pay2 (F := Ideal) (m ((c : Thread nD τ).loc main_arg2)) :=
  (W1_arr m ρ c 3).trans (Cert.KernelIdeal.Region0.maskArr (V0 m ρ) c)

/-- The masked centroid of X, U, M. -/
theorem entry_w (c : Dev nD) :
    V1 m ρ c main_v0_1 = k0_pay3 (F := Ideal) (m ((c : Thread nD τ).loc main_arg0)) (m ((c : Thread nD τ).loc main_arg1))
      (m ((c : Thread nD τ).loc main_arg2)) :=
  (W1_arr m ρ c 4).trans (Cert.KernelIdeal.Region0.maskedCenArr (V0 m ρ) c)

/-- The row of sums. -/
theorem entry_s (c : Dev nD) :
    V1 m ρ c main_v0_2 = k0_pay4 (F := Ideal) (m ((c : Thread nD τ).loc main_arg0)) (m ((c : Thread nD τ).loc main_arg1))
      (m ((c : Thread nD τ).loc main_arg2)) :=
  (W1_arr m ρ c 5).trans (Cert.KernelIdeal.Region0.rowSumArr (V0 m ρ) c)

/-! ## The result array after the run -/

theorem result_eq (c : Dev nD) :
    (dat1 (V1 m ρ) c).arrAt 4 cfg1.N
      = kerArr (m ((c : Thread nD τ).loc main_arg0)) (m ((c : Thread nD τ).loc main_arg1)) (m ((c : Thread nD τ).loc main_arg2)) := by
  rw [Cert.KernelIdeal.Region1.distArr (V1 m ρ) c, entry_x, entry_h, entry_w, entry_s]
  exact expanded_eq_kerArr _ _ _

/-- The run of the idealized kernel: it terminates, nothing faulting, the result array at the expanded form of the masked
    distance of the arguments, and the arguments as launched. -/
theorem run : θ_run defs (onTc (τ := τ) (main (F := Ideal))) ⟨m, fun _ => 0, ρ⟩ (fun r => ∀ c : Dev nD,
      r.2.mem ((c.tc : Thread nD τ).loc main_v1)
        = kerArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.Run.run_named m ρ)

end Cert.KernelIdeal.KValue

end
-- ==== Proof.lean ====
/-
  The certificate: the masked squared distance to per-column centroids, a two-call kernel against its jnp reference.

  For X : [512, 1024], U : [512, 512], M : [512, 1024] the reference takes the centroids C = Uᵀ·X / 512, the hard mask
  h = round (clip (M, 0, 1)) and returns D[b, k] = ∑_d ((X[b, d] − C[k, d]) · h[k, d])². The kernel never forms the
  differences: its first call stores h, the masked centroid h · C' (C' = Uᵀ·X · 2⁻⁹) and the row ∑_d h · C'², its second
  call returns X²·hᵀ − 2 · X·(h·C')ᵀ + that row, block of rows by block of rows.

  On the extended reals the two agree when the inputs are real (the precondition): h is then 0 or 1, so h² = h, a
  quotient by 512 is the product with 2⁻⁹, and the square expands term by term under finite sums. The three frames
  are the generated ones (the reference's is its generated run with the result dropped); the idealization rewrote
  nothing, so the kernel's idealization is the kernel's own text read on the extended reals.
-/
import proofs.«110606_j33285996544551_1_alg».proof.Defs
import proofs.«110606_j33285996544551_1_alg».proof.Proof.Gen.Kernel
import proofs.«110606_j33285996544551_1_alg».proof.Proof.Gen.Kernel.Skeleton
import proofs.«110606_j33285996544551_1_alg».proof.Proof.Gen.Kernel.Launch
import proofs.«110606_j33285996544551_1_alg».proof.Proof.Gen.Kernel.Points
import proofs.«110606_j33285996544551_1_alg».proof.Proof.Gen.Kernel.Frame
import proofs.«110606_j33285996544551_1_alg».proof.Proof.Gen.KernelIdeal
import proofs.«110606_j33285996544551_1_alg».proof.Proof.Gen.KernelIdeal.Skeleton
import proofs.«110606_j33285996544551_1_alg».proof.Proof.Gen.KernelIdeal.Launch
import proofs.«110606_j33285996544551_1_alg».proof.Proof.Gen.KernelIdeal.Points
import proofs.«110606_j33285996544551_1_alg».proof.Proof.Gen.KernelIdeal.Frame
import proofs.«110606_j33285996544551_1_alg».proof.Proof.Gen.ReferenceIdeal
import proofs.«110606_j33285996544551_1_alg».proof.Proof.Gen.Pre_finite_inputs
import proofs.«110606_j33285996544551_1_alg».proof.Proof.Gen.ReferenceIdeal.Run
import proofs.«110606_j33285996544551_1_alg».proof.Proof.Gen.ReferenceIdeal.Read
import proofs.«110606_j33285996544551_1_alg».proof.Proof.Spec
import proofs.«110606_j33285996544551_1_alg».proof.Proof.Law
import proofs.«110606_j33285996544551_1_alg».proof.Proof.Finite
import proofs.«110606_j33285996544551_1_alg».proof.Proof.RefValue
import proofs.«110606_j33285996544551_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on real arguments both programs end at one array: the kernel's at the expanded form, the
    reference's at the quotient form, and on real data the two forms are one function. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.MaskedDist.kerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hU, hM⟩ := Cert.MaskedDist.Finite.real_of_pre _ _ _ (hpre c)
  rw [Cert.ReferenceIdeal.Read.val_main_v14_eq, Cert.ReferenceIdeal.RefValue.ref_eq, (hagree c).1, (hagree c).2.1,
    (hagree c).2.2]
  exact (Cert.MaskedDist.kerArr_eq_refArr _ _ _ hX hU hM).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
